-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S2048x256 : Shape := ⟨2, ![2048, 256]⟩
abbrev S2048x1 : Shape := ⟨2, ![2048, 1]⟩
abbrev S2048x2048 : Shape := ⟨2, ![2048, 2048]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S2048x1_S2048x1_0_0 : ∀ a, (![0, 0] : Fin 2 → Nat) a + S2048x1.size a ≤ S2048x1.size a
  h_S2048x1 : 0 < S2048x1.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S2048x1_S2048x1 : S2048x1.ShapeCasts S2048x1
  reduces_S2048x2048_S2048 : S2048x2048.Reduces [1] S2048
  shapeCasts_S2048_S2048x1 : S2048.ShapeCasts S2048x1
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.TileBody.lean ====
/-
  The kernel body's arithmetic at one entry, on the extended reals.

  A grid point holds a 2048×256 tile `x0` of `x`, a 2048×256 tile `x1` of `weight` and the running 2048×1 column
  `acc`. The body adds to row `r` of the column the sum, over the tile's 2048 hidden rows `j` and its 256 contraction
  positions `k`, of `x0[r,k] · x1[j,k]`: the narrowing to bf16 is the identity on the extended reals, the matrix product
  into a zero accumulator is the plain sum of products over `k`, and the lane reduction is the plain sum over `j`.
  The first point of a run starts from the zero column; the last one multiplies the column by the constant one.
-/
import proofs.«121713_j3556232921949_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## A vector cast to a one-column matrix -/

/-- An `[a]` vector cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The tile product's operand indices -/

theorem lhs_tile_0 (i : S2048x2048.Idx) (q : dot_S2048x256_S2048x256_S2048x2048_1_1_0_0_n_n.contr.Idx) :
    (dot_S2048x256_S2048x256_S2048x2048_1_1_0_0_n_n.lhsIdx i q 0).val = (i 0).val := by
  unfold DotDims.lhsIdx
  rw [dif_neg (show ¬(0 : Fin S2048x256.rank) ∈ dot_S2048x256_S2048x256_S2048x2048_1_1_0_0_n_n.lhsBatch by decide), dif_pos (show (0 : Fin S2048x256.rank) ∈ dot_S2048x256_S2048x256_S2048x2048_1_1_0_0_n_n.lhsNonContracting by decide)]
  rfl
theorem lhs_tile_1 (i : S2048x2048.Idx) (q : dot_S2048x256_S2048x256_S2048x2048_1_1_0_0_n_n.contr.Idx) :
    (dot_S2048x256_S2048x256_S2048x2048_1_1_0_0_n_n.lhsIdx i q 1).val = (q ⟨0, by decide⟩).val :=
  dot_S2048x256_S2048x256_S2048x2048_1_1_0_0_n_n.lhsIdx_val_of_single rfl i q
theorem rhs_tile_0 (i : S2048x2048.Idx) (q : dot_S2048x256_S2048x256_S2048x2048_1_1_0_0_n_n.contr.Idx) :
    (dot_S2048x256_S2048x256_S2048x2048_1_1_0_0_n_n.rhsIdx i q 0).val = (i 1).val := by
  unfold DotDims.rhsIdx
  rw [dif_neg (show ¬(0 : Fin S2048x256.rank) ∈ dot_S2048x256_S2048x256_S2048x2048_1_1_0_0_n_n.rhsBatch by decide), dif_pos (show (0 : Fin S2048x256.rank) ∈ dot_S2048x256_S2048x256_S2048x2048_1_1_0_0_n_n.rhsNonContracting by decide)]
  rfl
theorem rhs_tile_1 (i : S2048x2048.Idx) (q : dot_S2048x256_S2048x256_S2048x2048_1_1_0_0_n_n.contr.Idx) :
    (dot_S2048x256_S2048x256_S2048x2048_1_1_0_0_n_n.rhsIdx i q 1).val = (q ⟨0, by decide⟩).val :=
  dot_S2048x256_S2048x256_S2048x2048_1_1_0_0_n_n.rhsIdx_val_of_single rfl i q

/-- The tile product at entry `(r, j)`: row `r` of the `x` tile against row `j` of the `weight` tile, summed over the
    256 contraction positions. -/
theorem tile_matmul_apply (x0 x1 : Vec Ideal S2048x256 .f32) (r j : Fin 2048) :
    matmul dot_S2048x256_S2048x256_S2048x2048_1_1_0_0_n_n none (truncf .bf16 x0 bitsLt_bf16_f32) (truncf .bf16 x1 bitsLt_bf16_f32)
        (constant (F := Ideal) S2048x2048 .f32 0x00000000#32) (ix2 r j)
      = ∑ k : Fin 256, x0 (ix2 r k) * x1 (ix2 j k) := by
  simp only [matmul]
  rw [Ideal.matmul_constant_zero_apply, ← Equiv.sum_comp (contrEquiv1 dot_S2048x256_S2048x256_S2048x2048_1_1_0_0_n_n 256 rfl rfl).symm]
  refine Finset.sum_congr rfl fun k _ => ?_
  have hk := contrEquiv1_symm_val dot_S2048x256_S2048x256_S2048x2048_1_1_0_0_n_n 256 rfl rfl k
  have el : dot_S2048x256_S2048x256_S2048x2048_1_1_0_0_n_n.lhsIdx (ix2 r j) ((contrEquiv1 dot_S2048x256_S2048x256_S2048x2048_1_1_0_0_n_n 256 rfl rfl).symm k) = ix2 r k := funext fun a => Fin.ext (by
    match a with
    | ⟨0, _⟩ => exact lhs_tile_0 _ _
    | ⟨1, _⟩ => exact (lhs_tile_1 _ _).trans hk)
  have er : dot_S2048x256_S2048x256_S2048x2048_1_1_0_0_n_n.rhsIdx (ix2 r j) ((contrEquiv1 dot_S2048x256_S2048x256_S2048x2048_1_1_0_0_n_n 256 rfl rfl).symm k) = ix2 j k := funext fun a => Fin.ext (by
    match a with
    | ⟨0, _⟩ => exact rhs_tile_0 _ _
    | ⟨1, _⟩ => exact (rhs_tile_1 _ _).trans hk)
  rw [el, er]
  rfl

/-! ## The three stored values at an entry -/

/-- The column a run starts from is zero. -/
theorem zero_col_apply (i : S2048x1.Idx) : k0_pay1 (F := Ideal) i = 0 :=
  Ideal.ofBits_zero_f32

/-- One point's update of the column: row `r` gains the tile's double sum. -/
theorem update_apply (x0 x1 : Vec Ideal S2048x256 .f32) (acc : Vec Ideal S2048x1 .f32) (r : Fin 2048) (u : Fin 1) :
    k0_pay2 (F := Ideal) x0 x1 acc (ix2 r u)
      = acc (ix2 r u) + ∑ j : Fin 2048, ∑ k : Fin 256, x0 (ix2 r k) * x1 (ix2 j k) := by
  unfold k0_pay2
  refine (addf_apply _ _ _).trans (congrArg₂ (· + ·) ?_ ?_)
  · exact congrFun (shapeCast_self acc _) _
  · refine (shapeCast_a_a1_apply _ _ r u).trans ?_
    refine (Ideal.multiReduction_add_single _ 0x00000000#32 reduces_S2048x2048_S2048 (.inl rfl) rfl (ix1 r)).trans ?_
    refine Finset.sum_congr rfl fun j _ => ?_
    have e : reduces_S2048x2048_S2048.lift (ix1 r) j = ix2 r j :=
      funext fun a => Fin.ext (by match a with | ⟨0, _⟩ => rfl | ⟨1, _⟩ => rfl)
    rw [e]
    exact tile_matmul_apply x0 x1 r j

/-- The last point's closing step: the column times the constant one. -/
theorem scale_apply (y : Vec Ideal S2048x1 .f32) (i : S2048x1.Idx) :
    k0_pay3 (F := Ideal) y i = y i * Ideal.ofBits .f32 0x3F800000#32 := by
  unfold k0_pay3
  refine (mulf_apply _ _ _).trans ?_
  rw [shapeCast_self]
  rfl

end Cert.KernelIdeal.Tile

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.RunFold.lean ====
/-
  What the kernel leaves in the result array, entry by entry, on the extended reals.

  The grid is 2 × 2 × 16: point `n` (row-major) works on row tile `n / 32` of `x`, hidden tile `n / 16 % 2` of `weight` and
  contraction tile `n % 16`. The 32 points of one row tile form a run over the same 2048×1 output block: the first starts
  the column from zero, every point adds its tile's double sum `∑ j k, x[r,k] · weight[j,k]`, the last multiplies by one
  and the block is written back. So row `b` of the result is the sum of the 32 tile sums of its run, times one; and the 32
  tiles (2 hidden tiles × 16 contraction tiles) cut the full 4096 × 4096 range of `(j, k)` into pieces, so that sum is the
  whole double sum `∑ j k, x[b,k] · weight[j,k]`. Only commutativity and associativity of addition are used: no
  finiteness.
-/
import proofs.«121713_j3556232921949_1_alg».proof.Proof.Gen.KernelIdeal.Value
import proofs.«121713_j3556232921949_1_alg».proof.Proof.TileBody
import proofs.«121713_j3556232921949_1_alg».proof.Proof.LibTiledSum

noncomputable section

namespace Cert.KernelIdeal.Fold

open Cert.KernelIdeal Cert.KernelIdeal.Gen Cert.KernelIdeal.Tile Idealize.ShloMosaic Idealize.ShloMosaic.TcCoe
open Idealize.ShloMosaic.ValueIdx Idealize.SL.Sem

variable (m : (ℓ : Loc nD τ sig) → Buf (Elt Ideal) ℓ)

/-! ## The arrays and the blocks, at their literal types -/

/-- The argument `x` as the region finds it. -/
abbrev xarr (c : Dev nD) : Vec Ideal S4096x4096 .f32 := V m c main_arg0
/-- The argument `weight` as the region finds it. -/
abbrev warr (c : Dev nD) : Vec Ideal S4096x4096 .f32 := V m c main_arg1
/-- The tile of `x` at a grid point. -/
abbrev xblk (c : Dev nD) (t : Fin cfg0.N) : Vec Ideal S2048x256 .f32 := iblk m c 0 t
/-- The tile of `weight` at a grid point. -/
abbrev wblk (c : Dev nD) (t : Fin cfg0.N) : Vec Ideal S2048x256 .f32 := iblk m c 1 t

theorem point_lt (t : Fin cfg0.N) : t.val < 64 := lt_of_lt_of_eq t.isLt (show cfg0.N = 64 from N_0)

theorem row_lt {n r : ℕ} (hn : n < 64) (hr : r < 2048) : 2048 * (n / 32) + r < 4096 := by omega
theorem col_lt {n k : ℕ} (hk : k < 256) : 256 * (n % 16) + k < 4096 := by omega
theorem hid_lt {n j : ℕ} (hj : j < 2048) : 2048 * (n / 16 % 2) + j < 4096 := by omega

/-- Which tile of `x` a point stages: row tile `t / 32`, contraction tile `t % 16`. -/
theorem idx_facts0 : ∀ t : Fin cfg0.N, win0_0.index t (0 : Fin 2) = t.val / 32 ∧ win0_0.index t (1 : Fin 2) = t.val % 16 :=
  (by decide +kernel : ∀ t : Fin grid0.N, _)

/-- Which tile of `weight` a point stages: hidden tile `t / 16 % 2`, contraction tile `t % 16`. -/
theorem idx_facts1 : ∀ t : Fin cfg0.N, win0_1.index t (0 : Fin 2) = t.val / 16 % 2 ∧ win0_1.index t (1 : Fin 2) = t.val % 16 :=
  (by decide +kernel : ∀ t : Fin grid0.N, _)

/-- An entry of the `x` tile is the entry of `x` at the tile's offset. -/
theorem xblk_apply (c : Dev nD) (t : Fin cfg0.N) (r : Fin 2048) (k : Fin 256) :
    xblk m c t (ix2 r k)
      = xarr m c (ix2 (⟨2048 * (t.val / 32) + r.val, row_lt (point_lt t) r.isLt⟩ : Fin 4096)
          (⟨256 * (t.val % 16) + k.val, col_lt k.isLt⟩ : Fin 4096)) := by
  obtain ⟨e0, e1⟩ := idx_facts0 t
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 2048 + 1 * r.val = 2048 * (t.val / 32) + r.val; rw [e0]; omega
  | ⟨1, _⟩ => show win0_0.index t (1 : Fin 2) * 256 + 1 * k.val = 256 * (t.val % 16) + k.val; rw [e1]; omega

/-- An entry of the `weight` tile is the entry of `weight` at the tile's offset. -/
theorem wblk_apply (c : Dev nD) (t : Fin cfg0.N) (j : Fin 2048) (k : Fin 256) :
    wblk m c t (ix2 j k)
      = warr m c (ix2 (⟨2048 * (t.val / 16 % 2) + j.val, hid_lt j.isLt⟩ : Fin 4096)
          (⟨256 * (t.val % 16) + k.val, col_lt k.isLt⟩ : Fin 4096)) := by
  obtain ⟨e0, e1⟩ := idx_facts1 t
  show V m c main_arg1 (((cfg0.win 1).blk t).view.emb (ix2 j k)) = V m c main_arg1 _
  refine congrArg (V m c main_arg1) (funext fun a => Fin.ext ?_)
  match a with
  | ⟨0, _⟩ => show win0_1.index t (0 : Fin 2) * 2048 + 1 * j.val = 2048 * (t.val / 16 % 2) + j.val; rw [e0]; omega
  | ⟨1, _⟩ => show win0_1.index t (1 : Fin 2) * 256 + 1 * k.val = 256 * (t.val % 16) + k.val; rw [e1]; omega

/-! ## One point's addend -/

/-- Point `n`'s addend to row `y 0` of the column: its tile's double sum (zero past the grid, where it is never read). -/
def tileSum (c : Dev nD) (n : ℕ) (y : S2048x1.Idx) : EReal :=
  if h : n < cfg0.N then ∑ j : Fin 2048, ∑ k : Fin 256, xblk m c ⟨n, h⟩ (ix2 (y 0) k) * wblk m c ⟨n, h⟩ (ix2 j k) else 0

theorem tileSum_of_lt (c : Dev nD) (n : ℕ) (h : n < cfg0.N) (r : Fin 2048) (u : Fin 1) :
    tileSum m c n (ix2 r u) = ∑ j : Fin 2048, ∑ k : Fin 256, xblk m c ⟨n, h⟩ (ix2 r k) * wblk m c ⟨n, h⟩ (ix2 j k) :=
  dif_pos h

/-- The first point of a run leaves zero plus its addend. -/
theorem reset_apply (c : Dev nD) (b : ℕ) (h : b < cfg0.N) (i : S2048x1.Idx) :
    Value.reset2 m c b h i = 0 + tileSum m c b i := by
  obtain ⟨r, u, rfl⟩ : ∃ (r : Fin 2048) (u : Fin 1), i = ix2 r u := ⟨i 0, i 1, eq_ix2 i⟩
  rw [tileSum_of_lt m c b h r u]
  refine (update_apply (xblk m c ⟨b, h⟩) (wblk m c ⟨b, h⟩) (k0_pay1 (F := Ideal)) r u).trans ?_
  rw [zero_col_apply]

/-- A point strictly inside a run adds its addend to what the point before left. -/
theorem step_mid_apply (c : Dev nD) (n : ℕ) (h : n < cfg0.N) (acc : Vec Ideal S2048x1 .f32) (i : S2048x1.Idx)
    (h0 : ¬n % 32 = 0) (h1 : ¬n % 32 = 31) :
    Value.step2 m c n h acc i = acc i + tileSum m c n i := by
  obtain ⟨r, u, rfl⟩ : ∃ (r : Fin 2048) (u : Fin 1), i = ix2 r u := ⟨i 0, i 1, eq_ix2 i⟩
  rw [tileSum_of_lt m c n h r u]
  unfold Value.step2
  rw [if_pos ⟨h0, h1⟩]
  exact update_apply (xblk m c ⟨n, h⟩) (wblk m c ⟨n, h⟩) acc r u

/-- The last point of a run adds its addend and multiplies by one. -/
theorem step_last_apply (c : Dev nD) (n : ℕ) (h : n < cfg0.N) (acc : Vec Ideal S2048x1 .f32) (i : S2048x1.Idx)
    (h0 : ¬n % 32 = 0) (h1 : n % 32 = 31) :
    Value.step2 m c n h acc i = (acc i + tileSum m c n i) * Ideal.ofBits .f32 0x3F800000#32 := by
  obtain ⟨r, u, rfl⟩ : ∃ (r : Fin 2048) (u : Fin 1), i = ix2 r u := ⟨i 0, i 1, eq_ix2 i⟩
  rw [tileSum_of_lt m c n h r u]
  unfold Value.step2
  rw [if_neg (fun hh => hh.2 h1), if_pos ⟨h0, h1⟩]
  refine (scale_apply _ _).trans ?_
  exact congrArg (· * Ideal.ofBits .f32 0x3F800000#32) (update_apply (xblk m c ⟨n, h⟩) (wblk m c ⟨n, h⟩) acc r u)

/-! ## A run's fold -/

/-- After the first 31 points of run `q` the column holds the sum of their addends. -/
theorem fold_mid (c : Dev nD) (q : ℕ) (hq : 32 * q + 30 < cfg0.N) (i : S2048x1.Idx) :
    Pipeline.accAt (Value.reset2 m c) (Value.step2 m c) (32 * q) 30 hq i
      = 0 + ∑ s ∈ Finset.range 31, tileSum m c (32 * q + s) i :=
  Pipeline.accAt_add_apply (ι := S2048x1.Idx) (β := EReal) (Value.reset2 m c) (Value.step2 m c) (fun _ => 0) (tileSum m c)
    (32 * q) 30 (fun h i => reset_apply m c _ h i)
    (fun n h acc i hb he => step_mid_apply m c n h acc i (by omega) (by omega)) 30 le_rfl hq i

/-- After the whole run `q` the column holds the sum of its 32 addends, times one. -/
theorem fold_all (c : Dev nD) (q : ℕ) (hq : 32 * q + 31 < cfg0.N) (i : S2048x1.Idx) :
    Pipeline.accAt (Value.reset2 m c) (Value.step2 m c) (32 * q) 31 hq i
      = (∑ s ∈ Finset.range 32, tileSum m c (32 * q + s) i) * Ideal.ofBits .f32 0x3F800000#32 := by
  show Value.step2 m c (32 * q + (30 + 1)) hq
      (Pipeline.accAt (Value.reset2 m c) (Value.step2 m c) (32 * q) 30 (Nat.lt_of_succ_lt hq)) i = _
  rw [step_last_apply m c _ hq _ i (by omega) (by omega), fold_mid m c q _ i, zero_add]
  exact congrArg (· * Ideal.ofBits .f32 0x3F800000#32) (Finset.sum_range_succ (fun s => tileSum m c (32 * q + s) i) 31).symm

/-- The fold does not depend on how its first point is spelt. -/
theorem accAt_base_congr {α : Type} {N : ℕ} (a : (n : ℕ) → n < N → α) (g : (n : ℕ) → n < N → α → α)
    (b b' j : ℕ) (h : b + j < N) (e : b = b') : Pipeline.accAt a g b j h = Pipeline.accAt a g b' j (e ▸ h) := by
  subst e; rfl

/-! ## The result array at an entry -/

/-- Row `b` of the array inside its 2048-row block. -/
def rowIn (b : Fin 4096) : Fin 2048 := ⟨b.val % 2048, Nat.mod_lt _ (by decide)⟩

theorem rowIn_val (b : Fin 4096) : (rowIn b).val = b.val % 2048 := rfl

/-- Row `b` of the result: the whole double sum over the hidden rows and the input positions, times one. -/
theorem out_apply (c : Dev nD) (b : Fin 4096) (u : Fin 1) :
    Value.G2 (F := Ideal) m c (ix2 b u)
      = (∑ j : Fin 4096, ∑ k : Fin 4096, xarr m c (ix2 b k) * warr m c (ix2 j k)) * Ideal.ofBits .f32 0x3F800000#32 := by
  have hN : cfg0.N = 64 := N_0
  have hb := b.isLt
  have hu : u.val = 0 := by omega
  have hr : Value.run2Of (ix2 b u) = b.val / 2048 := by
    show 1 * (b.val / 2048 - 0) + 1 * (u.val / 1 - 0) = b.val / 2048
    omega
  have hq : 32 * (b.val / 2048) + 31 < cfg0.N := by rw [hN]; omega
  have key : Value.G2 (F := Ideal) m c (ix2 b u)
      = Pipeline.accAt (Value.reset2 m c) (Value.step2 m c) (32 * (b.val / 2048)) 31 hq (Value.loc2Of (ix2 b u)) := by
    unfold Value.G2
    rw [dif_pos (by rw [hr]; exact hq)]
    exact congrFun (accAt_base_congr _ _ _ _ _ _ (by rw [hr])) _
  rw [key, fold_all m c (b.val / 2048) hq]
  refine congrArg (· * Ideal.ofBits .f32 0x3F800000#32) ?_
  refine (TiledSum.sum_range_tiles 2 16 _).trans ?_
  refine Eq.trans ?_ (TiledSum.sum_sum_fin_tiles 2 2048 16 256 rfl rfl _).symm
  refine Finset.sum_congr rfl fun a _ => Finset.sum_congr rfl fun cc _ => ?_
  have ha := a.isLt
  have hc := cc.isLt
  have hn : 32 * (b.val / 2048) + (a.val * 16 + cc.val) < cfg0.N := by rw [hN]; omega
  have hr0 := rowIn_val b
  have e : tileSum m c (32 * (b.val / 2048) + (a.val * 16 + cc.val)) (Value.loc2Of (ix2 b u))
      = ∑ j : Fin 2048, ∑ k : Fin 256, xblk m c ⟨_, hn⟩ (ix2 (rowIn b) k) * wblk m c ⟨_, hn⟩ (ix2 j k) :=
    dif_pos hn
  rw [e]
  refine Finset.sum_congr rfl fun j _ => Finset.sum_congr rfl fun k _ => ?_
  have hj := j.isLt
  have hk := k.isLt
  rw [xblk_apply m c ⟨_, hn⟩ (rowIn b) k, wblk_apply m c ⟨_, hn⟩ j k]
  refine congrArg₂ (· * ·) (congrArg (xarr m c) ?_) (congrArg (warr m c) ?_)
  · refine congrArg₂ ix2 (Fin.ext ?_) (Fin.ext ?_)
    · show 2048 * ((32 * (b.val / 2048) + (a.val * 16 + cc.val)) / 32) + (rowIn b).val = b.val
      rw [hr0]; omega
    · show 256 * ((32 * (b.val / 2048) + (a.val * 16 + cc.val)) % 16) + k.val = cc.val * 256 + k.val
      omega
  · refine congrArg₂ ix2 (Fin.ext ?_) (Fin.ext ?_)
    · show 2048 * ((32 * (b.val / 2048) + (a.val * 16 + cc.val)) / 16 % 2) + j.val = a.val * 2048 + j.val
      omega
    · show 256 * ((32 * (b.val / 2048) + (a.val * 16 + cc.val)) % 16) + k.val = cc.val * 256 + k.val
      omega

end Cert.KernelIdeal.Fold

end
-- ==== Proof.RefRead.lean ====
/-
  The reference at one entry, on the extended reals: row `b` of the result is the sum, over every hidden row `j` and
  every input position `k`, of `x[b,k] · weight[j,k]` — the matrix product `x · weightᵀ`, then its sum over the hidden
  axis started from zero — times the constant one.
-/
import proofs.«121713_j3556232921949_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The reference's result at `(b, u)`: the double sum over the hidden rows and the input positions, times one. -/
theorem ref_apply (x w : (⟨S4096x4096, .f32⟩ : BufTy).Contents (Elt Ideal)) (b : Fin 4096) (u : Fin 1) :
    val_main_v4 (F := Ideal) x w (ix2 b u)
      = (∑ j : Fin 4096, ∑ k : Fin 4096, x (ix2 b k) * w (ix2 j k)) * Ideal.ofBits .f32 0x3F800000#32 := by
  have el : ∀ j k : Fin 4096, lidx_main_v0 (idx_main_v1 (idx_main_v2 (ix2 b u)) j) k = ix2 b k := fun j k =>
    funext fun a => Fin.ext (by match a with | ⟨0, _⟩ => rfl | ⟨1, _⟩ => rfl)
  have er : ∀ j k : Fin 4096, ridx_main_v0 (idx_main_v1 (idx_main_v2 (ix2 b u)) j) k = ix2 j k := fun j k =>
    funext fun a => Fin.ext (by match a with | ⟨0, _⟩ => rfl | ⟨1, _⟩ => rfl)
  rw [val_main_v4_apply, val_main_v2_apply, val_main_v3_apply, val_main_cst_0_apply, val_main_v1_apply, val_main_cst_apply]
  simp only [val_main_v0_apply, el, er]
  show (Ideal.ofBits .f32 0x00000000#32 + _) * Ideal.ofBits .f32 0x3F800000#32 = _
  rw [Ideal.ofBits_zero_f32, zero_add]

end Cert.ReferenceIdeal.RefValue

end
-- ==== Proof.lean ====
/-
  A matrix product fused with the sum over its hidden axis, against the plain product followed by the sum.

  Reference: `out[b] = (0 + ∑ j, ∑ k, x[b,k] · weight[j,k]) · 1` over `j, k < 4096`.
  Kernel: a 2 × 2 × 16 grid of tiles; each point forms the 2048 × 2048 partial product of a 2048 × 256 tile of `x` with a
  2048 × 256 tile of `weight`, sums it over its hidden rows and adds the column into the output block of its row tile;
  the block starts at zero at the first point of the row tile and is multiplied by one at the last.
  On the extended reals the narrowing of the operands is the identity and every sum is exact, so both sides are the same
  double sum up to the order and grouping of its terms: commutativity and associativity of addition, which hold at the
  infinities too, so the finiteness of the inputs is never used.
  The kernel's run and the result array as the fold of each row tile's run are the generated value leg; the
  reference's run and its operations read at an index are the generated run and read modules. Written here: the body's
  arithmetic at an entry (TileBody), the fold as the whole double sum (RunFold, over the tile sums of LibTiledSum), the
  reference at an entry (RefRead), and their agreement.
-/
import proofs.«121713_j3556232921949_1_alg».proof.Defs
import proofs.«121713_j3556232921949_1_alg».proof.Proof.Gen.Kernel.Frame
import proofs.«121713_j3556232921949_1_alg».proof.Proof.Gen.KernelIdeal.Value
import proofs.«121713_j3556232921949_1_alg».proof.Proof.Gen.Pre_finite_inputs
import proofs.«121713_j3556232921949_1_alg».proof.Proof.Gen.ReferenceIdeal.Run
import proofs.«121713_j3556232921949_1_alg».proof.Proof.RunFold
import proofs.«121713_j3556232921949_1_alg».proof.Proof.RefRead
import Idealize.ShloMosaic.Adequacy
import Idealize.ShloMosaic.Init

noncomputable section

namespace Cert.Proof

open Idealize.ShloMosaic Idealize.ShloMosaic.ValueIdx Idealize.SL.Sem

/-- Entry by entry, the reference's result on the kernel's arguments is what the kernel leaves in its result array:
    both are the double sum over the hidden rows and the input positions, times one. -/
theorem result_apply (m : (ℓ : Loc Cert.KernelIdeal.nD Cert.KernelIdeal.τ Cert.KernelIdeal.sig) → Buf (Elt Ideal) ℓ)
    (c : Dev Cert.KernelIdeal.nD) (b : Fin 4096) (u : Fin 1) :
    Cert.ReferenceIdeal.Read.val_main_v4 (F := Ideal) (Cert.KernelIdeal.Fold.xarr m c) (Cert.KernelIdeal.Fold.warr m c) (ix2 b u)
      = Cert.KernelIdeal.Value.G2 (F := Ideal) m c (ix2 b u) := by
  rw [Cert.ReferenceIdeal.RefValue.ref_apply, Cert.KernelIdeal.Fold.out_apply]

/-- The same as an equation of arrays. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v4 (F := Ideal) (Cert.KernelIdeal.Fold.xarr m c) (Cert.KernelIdeal.Fold.warr m c)
      = Cert.KernelIdeal.Value.G2 (F := Ideal) m c := by
  funext i
  obtain ⟨b, u, rfl⟩ : ∃ (b : Fin 4096) (u : Fin 1), i = ix2 b u := ⟨i 0, i 1, eq_ix2 i⟩
  exact result_apply m c b u

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on `x` and `weight` the kernel ends with its result array at the fold of its runs and the
    reference with its result at the product summed over the hidden axis: the same array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2]
  exact (Cert.ReferenceIdeal.Read.val_main_v4_eq _ _).trans (result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
